-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S32x16 : Shape := ⟨2, ![32, 16]⟩
abbrev S256x128 : Shape := ⟨2, ![256, 128]⟩
abbrev S16x128 : Shape := ⟨2, ![16, 128]⟩
abbrev S16 : Shape := ⟨1, ![16]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S32x16 : S_.BroadcastsInDim S32x16 (![] : Fin 0 → Fin S32x16.rank)
  reducesTo_S32x16_S_d0_1 : S32x16.ReducesTo [0, 1] S_
  bcast_S_S256x128 : S_.BroadcastsInDim S256x128 (![] : Fin 0 → Fin S256x128.rank)
  reducesTo_S256x128_S_d0_1 : S256x128.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S32x1024x128 .f32) (main_arg1 : FVec F S32x16 .f32) (main_arg2 : FVec F S256x128 .f32) (main_arg3 : FVec F S16x128 .f32) (main_arg4 : FVec F S16 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x16 .f32 := Host.absf main_arg1
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S16x128 .f32 := Host.absf main_arg3
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg4 main_v13 main_v16
-- ==== Kernel.lean ====
abbrev S32x1024x128 : Shape := ⟨3, ![32, 1024, 128]⟩
abbrev S32x16 : Shape := ⟨2, ![32, 16]⟩
abbrev S256x128 : Shape := ⟨2, ![256, 128]⟩
abbrev S16x128 : Shape := ⟨2, ![16, 128]⟩
abbrev S16 : Shape := ⟨1, ![16]⟩
abbrev S128x16 : Shape := ⟨2, ![128, 16]⟩
abbrev S16x16 : Shape := ⟨2, ![16, 16]⟩
abbrev S1x16 : Shape := ⟨2, ![1, 16]⟩
abbrev S1x256 : Shape := ⟨2, ![1, 256]⟩
abbrev S1x128x1x16 : Shape := ⟨4, ![1, 128, 1, 16]⟩
abbrev S1x128x16x16 : Shape := ⟨4, ![1, 128, 16, 16]⟩
abbrev S128x256 : Shape := ⟨2, ![128, 256]⟩
abbrev S32x16x16 : Shape := ⟨3, ![32, 16, 16]⟩
abbrev S32x256 : Shape := ⟨2, ![32, 256]⟩
abbrev S32x1x256 : Shape := ⟨3, ![32, 1, 256]⟩
abbrev S32x1024x256 : Shape := ⟨3, ![32, 1024, 256]⟩
abbrev S1x1024x128 : Shape := ⟨3, ![1, 1024, 128]⟩
abbrev S1x1x256 : Shape := ⟨3, ![1, 1, 256]⟩
abbrev S1x1024x256 : Shape := ⟨3, ![1, 1024, 256]⟩
abbrev S1024x128 : Shape := ⟨2, ![1024, 128]⟩
abbrev S1024x256 : Shape := ⟨2, ![1024, 256]⟩
abbrev S32x32x32x16x4x4 : Shape := ⟨6, ![32, 32, 32, 16, 4, 4]⟩
abbrev S32x16x32x4x32x4 : Shape := ⟨6, ![32, 16, 32, 4, 32, 4]⟩
abbrev S32x16x128x128 : Shape := ⟨4, ![32, 16, 128, 128]⟩

abbrev nBuf : Space → Nat
  | .hbm => 24
  | .vmem => 8
  | .smem => 0
  | _ => 0

abbrev bufTy : (tb : Table) → Fin (tcTables nBuf tb) → BufTy
  | .hbm, ⟨0, _⟩ => ⟨S32x1024x128, .f32⟩
  | .hbm, ⟨1, _⟩ => ⟨S32x16, .f32⟩
  | .hbm, ⟨2, _⟩ => ⟨S256x128, .f32⟩
  | .hbm, ⟨3, _⟩ => ⟨S16x128, .f32⟩
  | .hbm, ⟨4, _⟩ => ⟨S16, .f32⟩
  | .hbm, ⟨5, _⟩ => ⟨S16x128, .f32⟩
  | .hbm, ⟨6, _⟩ => ⟨S128x16, .f32⟩
  | .hbm, ⟨7, _⟩ => ⟨S16x16, .f32⟩
  | .hbm, ⟨8, _⟩ => ⟨S1x16, .f32⟩
  | .hbm, ⟨9, _⟩ => ⟨S16x16, .f32⟩
  | .hbm, ⟨10, _⟩ => ⟨S16x16, .f32⟩
  | .hbm, ⟨11, _⟩ => ⟨S1x256, .f32⟩
  | .hbm, ⟨12, _⟩ => ⟨S128x16, .f32⟩
  | .hbm, ⟨13, _⟩ => ⟨S1x128x1x16, .f32⟩
  | .hbm, ⟨14, _⟩ => ⟨S1x128x16x16, .f32⟩
  | .hbm, ⟨15, _⟩ => ⟨S128x256, .f32⟩
  | .hbm, ⟨16, _⟩ => ⟨S128x256, .bf16⟩
  | .hbm, ⟨17, _⟩ => ⟨S32x16x16, .f32⟩
  | .hbm, ⟨18, _⟩ => ⟨S32x256, .f32⟩
  | .hbm, ⟨19, _⟩ => ⟨S32x1x256, .f32⟩
  | .hbm, ⟨20, _⟩ => ⟨S32x1024x256, .f32⟩
  | .hbm, ⟨21, _⟩ => ⟨S32x32x32x16x4x4, .f32⟩
  | .hbm, ⟨22, _⟩ => ⟨S32x16x32x4x32x4, .f32⟩
  | .hbm, ⟨23, _⟩ => ⟨S32x16x128x128, .f32⟩
  | .local _ .vmem, ⟨0, _⟩ => ⟨S1x1024x128, .f32⟩
  | .local _ .vmem, ⟨1, _⟩ => ⟨S1x1024x128, .f32⟩
  | .local _ .vmem, ⟨2, _⟩ => ⟨S128x256, .bf16⟩
  | .local _ .vmem, ⟨3, _⟩ => ⟨S1x256, .f32⟩
  | .local _ .vmem, ⟨4, _⟩ => ⟨S1x1x256, .f32⟩
  | .local _ .vmem, ⟨5, _⟩ => ⟨S1x1x256, .f32⟩
  | .local _ .vmem, ⟨6, _⟩ => ⟨S1x1024x256, .f32⟩
  | .local _ .vmem, ⟨7, _⟩ => ⟨S1x1024x256, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S256x128_S16x128_0_0 : S256x128.Slices ![0, 0] S16x128
  transposes_S16x128_S128x16_1_0 : S16x128.Transposes [1, 0] S128x16
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  shapeCasts_S16x16_S1x256 : S16x16.ShapeCasts S1x256
  shapeCasts_S128x16_S1x128x1x16 : S128x16.ShapeCasts S1x128x1x16
  bcast_S1x128x1x16_S1x128x16x16_0_1_2_3 : S1x128x1x16.BroadcastsInDim S1x128x16x16 (![0, 1, 2, 3] : Fin 4 → Fin S1x128x16x16.rank)
  shapeCasts_S1x128x16x16_S128x256 : S1x128x16x16.ShapeCasts S128x256
  bitsLt_bf16_f32 : FTy.bits .bf16 < FTy.bits .f32
  bcast_S32x16_S32x16x16_0_1 : S32x16.BroadcastsInDim S32x16x16 (![0, 1] : Fin 2 → Fin S32x16x16.rank)
  shapeCasts_S32x16x16_S32x256 : S32x16x16.ShapeCasts S32x256
  shapeCasts_S32x256_S32x1x256 : S32x256.ShapeCasts S32x1x256
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  shapeCasts_S32x1024x256_S32x32x32x16x4x4 : S32x1024x256.ShapeCasts S32x32x32x16x4x4
  transposes_S32x32x32x16x4x4_S32x16x32x4x32x4_0_3_1_4_2_5 : S32x32x32x16x4x4.Transposes [0, 3, 1, 4, 2, 5] S32x16x32x4x32x4
  shapeCasts_S32x16x32x4x32x4_S32x16x128x128 : S32x16x32x4x32x4.ShapeCasts S32x16x128x128
  dot_S16x128_S128x16_S16x16_1_0_0_1_n_n_wf : DotDims.WF S16x128 S128x16 S16x16 [1] [0] [0] [1] [] []
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x1024x128.size a
  hwx0_0 : ∀ i : grid0.Coords, EltTy.bits .f32 = 32 ∨ (Rect.block (s := S32x1024x128) S1x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S32x1x256.size a
  hwx0_3 : ∀ i : grid0.Coords, EltTy.bits .f32 = 32 ∨ (Rect.block (s := S32x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S32x1024x256.size a
  hwx0_4 : ∀ i : grid0.Coords, EltTy.bits .f32 = 32 ∨ (Rect.block (s := S32x1024x256) S1x1024x256.size (cc0_transform_4 i) (hinb0_4 i)).WholeWords (EltTy.packing .f32)

variable [Facts₀]

def dot_S16x128_S128x16_S16x16_1_0_0_1_n_n : DotDims S16x128 S128x16 S16x16 where
  lhsContracting := [1]
  rhsContracting := [0]
  lhsNonContracting := [0]
  rhsNonContracting := [1]
  lhsBatch := []
  rhsBatch := []
  wf := dot_S16x128_S128x16_S16x16_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S32x16 : Shape := ⟨2, ![32, 16]⟩
abbrev S256x128 : Shape := ⟨2, ![256, 128]⟩
abbrev S16x128 : Shape := ⟨2, ![16, 128]⟩
abbrev S16 : Shape := ⟨1, ![16]⟩
abbrev S32x1x1024x128 : Shape := ⟨4, ![32, 1, 1024, 128]⟩
abbrev S1x16x1x128 : Shape := ⟨4, ![1, 16, 1, 128]⟩
abbrev S32x16x1024x128 : Shape := ⟨4, ![32, 16, 1024, 128]⟩
abbrev S32x16x1024x16 : Shape := ⟨4, ![32, 16, 1024, 16]⟩
abbrev S1x1x1x16 : Shape := ⟨4, ![1, 1, 1, 16]⟩
abbrev S32x16x32x32x4x4 : Shape := ⟨6, ![32, 16, 32, 32, 4, 4]⟩
abbrev S32x16x32x4x32x4 : Shape := ⟨6, ![32, 16, 32, 4, 32, 4]⟩
abbrev S32x16x128x128 : Shape := ⟨4, ![32, 16, 128, 128]⟩
abbrev S32x16x1x1 : Shape := ⟨4, ![32, 16, 1, 1]⟩

abbrev nBuf : Space → Nat
  | .hbm => 21
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x16, .f32⟩
  | .hbm, ⟨2, _⟩ => ⟨S256x128, .f32⟩
  | .hbm, ⟨3, _⟩ => ⟨S16x128, .f32⟩
  | .hbm, ⟨4, _⟩ => ⟨S16, .f32⟩
  | .hbm, ⟨5, _⟩ => ⟨S16x128, .f32⟩
  | .hbm, ⟨6, _⟩ => ⟨S32x1x1024x128, .f32⟩
  | .hbm, ⟨7, _⟩ => ⟨S1x16x1x128, .f32⟩
  | .hbm, ⟨8, _⟩ => ⟨S32x16x1024x128, .f32⟩
  | .hbm, ⟨9, _⟩ => ⟨S32x16x1024x128, .f32⟩
  | .hbm, ⟨10, _⟩ => ⟨S32x16x1024x128, .f32⟩
  | .hbm, ⟨11, _⟩ => ⟨S32x16x1024x16, .f32⟩
  | .hbm, ⟨12, _⟩ => ⟨S1x1x1x16, .f32⟩
  | .hbm, ⟨13, _⟩ => ⟨S32x16x1024x16, .f32⟩
  | .hbm, ⟨14, _⟩ => ⟨S32x16x1024x16, .f32⟩
  | .hbm, ⟨15, _⟩ => ⟨S32x16x32x32x4x4, .f32⟩
  | .hbm, ⟨16, _⟩ => ⟨S32x16x32x4x32x4, .f32⟩
  | .hbm, ⟨17, _⟩ => ⟨S32x16x128x128, .f32⟩
  | .hbm, ⟨18, _⟩ => ⟨S32x16x1x1, .f32⟩
  | .hbm, ⟨19, _⟩ => ⟨S32x16x128x128, .f32⟩
  | .hbm, ⟨20, _⟩ => ⟨S32x16x128x128, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  slices_S256x128_S16x128_0_0 : S256x128.Slices ![0, 0] S16x128
  bcast_S32x1024x128_S32x1x1024x128_0_2_3 : S32x1024x128.BroadcastsInDim S32x1x1024x128 (![0, 2, 3] : Fin 3 → Fin S32x1x1024x128.rank)
  bcast_S16x128_S1x16x1x128_1_3 : S16x128.BroadcastsInDim S1x16x1x128 (![1, 3] : Fin 2 → Fin S1x16x1x128.rank)
  bcast_S32x1x1024x128_S32x16x1024x128_0_1_2_3 : S32x1x1024x128.BroadcastsInDim S32x16x1024x128 (![0, 1, 2, 3] : Fin 4 → Fin S32x16x1024x128.rank)
  bcast_S1x16x1x128_S32x16x1024x128_0_1_2_3 : S1x16x1x128.BroadcastsInDim S32x16x1024x128 (![0, 1, 2, 3] : Fin 4 → Fin S32x16x1024x128.rank)
  bcast_S16_S1x1x1x16_3 : S16.BroadcastsInDim S1x1x1x16 (![3] : Fin 1 → Fin S1x1x1x16.rank)
  bcast_S1x1x1x16_S32x16x1024x16_0_1_2_3 : S1x1x1x16.BroadcastsInDim S32x16x1024x16 (![0, 1, 2, 3] : Fin 4 → Fin S32x16x1024x16.rank)
  shapeCasts_S32x16x1024x16_S32x16x32x32x4x4 : S32x16x1024x16.ShapeCasts S32x16x32x32x4x4
  transposes_S32x16x32x32x4x4_S32x16x32x4x32x4_0_1_2_4_3_5 : S32x16x32x32x4x4.Transposes [0, 1, 2, 4, 3, 5] S32x16x32x4x32x4
  shapeCasts_S32x16x32x4x32x4_S32x16x128x128 : S32x16x32x4x32x4.ShapeCasts S32x16x128x128
  bcast_S32x16_S32x16x1x1_0_1 : S32x16.BroadcastsInDim S32x16x1x1 (![0, 1] : Fin 2 → Fin S32x16x1x1.rank)
  bcast_S32x16x1x1_S32x16x128x128_0_1_2_3 : S32x16x1x1.BroadcastsInDim S32x16x128x128 (![0, 1, 2, 3] : Fin 4 → Fin S32x16x128x128.rank)
  dot_S32x16x1024x128_S16x128_S32x16x1024x16_3_1_012_0_n_n_wf : DotDims.WF S32x16x1024x128 S16x128 S32x16x1024x16 [3] [1] [0, 1, 2] [0] [] []

variable [Facts₀]

def dot_S32x16x1024x128_S16x128_S32x16x1024x16_3_1_012_0_n_n : DotDims S32x16x1024x128 S16x128 S32x16x1024x16 where
  lhsContracting := [3]
  rhsContracting := [1]
  lhsNonContracting := [0, 1, 2]
  rhsNonContracting := [0]
  lhsBatch := []
  rhsBatch := []
  wf := dot_S32x16x1024x128_S16x128_S32x16x1024x16_3_1_012_0_n_n_wf

class Facts : Prop extends Facts₀ where

variable [Facts]
-- ==== Proof.Spec.lean ====
/-
  The decoder head as ONE function of the five argument arrays, index by index, in the two arrangements the
  two programs compute it in, and the law that joins them.

  A pixel (r, q) of the 128 × 128 output image of batch b and channel c lies in patch (r / 4, q / 4) of the
  32 × 32 patch grid, which is token  tok r q = (r / 4) · 32 + q / 4,  at position  pix r q = (r % 4) · 4 + q % 4
  inside the 4 × 4 patch. The reference adds the channel's embedding row to the token BEFORE the linear head:
      out[b, c, r, q] = (Σ_d (x[b, tok, d] + emb[c, d]) · W[pix, d] + bias[pix]) · mask[b, c].
  The kernel applies the head to the token and to the embedding row separately, on a flat lane axis
  lane c p = c · 16 + p of width 256, and the image is read off the flat array afterwards:
      flat[b, n, c · 16 + p] = (Σ_d x[b, n, d] · W[p, d] + (Σ_d emb[c, d] · W[p, d] + bias[p])) · mask[b, c].
  The two agree where x, emb and W hold real numbers: (a + e) · w = a · w + e · w term by term (this is the
  one step that fails at infinities), a sum of sums, and associativity of +.
-/
import Idealize.ShloMosaic.PureOps.Ideal
import Idealize.ShloMosaic.Lib.ValueIdx
import Idealize.ShloMosaic.Lib.ValueIdxCoords
import Idealize.ShloMosaic.Lib.ValueIdxRank6

noncomputable section

open scoped BigOperators

namespace Cert.Spec

open Idealize.ShloMosaic Idealize.ShloMosaic.ValueIdx

abbrev SX : Shape := ⟨3, ![32, 1024, 128]⟩
abbrev SMask : Shape := ⟨2, ![32, 16]⟩
abbrev SEmb : Shape := ⟨2, ![256, 128]⟩
abbrev SW : Shape := ⟨2, ![16, 128]⟩
abbrev SBias : Shape := ⟨1, ![16]⟩
abbrev SFlat : Shape := ⟨3, ![32, 1024, 256]⟩
abbrev SOut : Shape := ⟨4, ![32, 16, 128, 128]⟩

/-- The token (patch number) of pixel (r, q): patch row r / 4, patch column q / 4, 32 patches to a row. -/
def tok (r q : Fin 128) : Fin 1024 := ⟨(r.val / 4) * 32 + q.val / 4, by have := r.isLt; have := q.isLt; omega⟩
/-- The position of pixel (r, q) inside its 4 × 4 patch, row-major. -/
def pix (r q : Fin 128) : Fin 16 := ⟨(r.val % 4) * 4 + q.val % 4, by omega⟩
/-- Channel c's row of the 256-row embedding table (the first 16 rows are used). -/
def embRow (c : Fin 16) : Fin 256 := ⟨c.val, by have := c.isLt; omega⟩
/-- The flat lane of channel c, patch position p. -/
def lane (c p : Fin 16) : Fin 256 := ⟨c.val * 16 + p.val, by have := c.isLt; have := p.isLt; omega⟩
/-- The channel of a flat lane. -/
def chanOf (j : Fin 256) : Fin 16 := ⟨j.val / 16, by have := j.isLt; omega⟩
/-- The patch position of a flat lane. -/
def pixOf (j : Fin 256) : Fin 16 := ⟨j.val % 16, by omega⟩

theorem chanOf_lane (c p : Fin 16) : chanOf (lane c p) = c := Fin.ext (by
  show (c.val * 16 + p.val) / 16 = c.val
  have := p.isLt; omega)
theorem pixOf_lane (c p : Fin 16) : pixOf (lane c p) = p := Fin.ext (by
  show (c.val * 16 + p.val) % 16 = p.val
  have := p.isLt; omega)

/-- The linear head on token n of batch b, at patch position p. -/
def xw (x : FVec Ideal SX .f32) (W : FVec Ideal SW .f32) (b : Fin 32) (n : Fin 1024) (p : Fin 16) : EReal :=
  ∑ d : Fin 128, x (ix3 b n d) * W (ix2 p d)

/-- The linear head on channel c's embedding row, with the bias, at patch position p. -/
def chw (emb : FVec Ideal SEmb .f32) (W : FVec Ideal SW .f32) (bias : FVec Ideal SBias .f32) (c p : Fin 16) : EReal :=
  (∑ d : Fin 128, emb (ix2 (embRow c) d) * W (ix2 p d)) + bias (ix1 p)

/-- The kernel's arrangement, on the flat lane axis. -/
def flatForm (x : FVec Ideal SX .f32) (mask : FVec Ideal SMask .f32) (emb : FVec Ideal SEmb .f32) (W : FVec Ideal SW .f32)
    (bias : FVec Ideal SBias .f32) : FVec Ideal SFlat .f32 := fun j =>
  (xw x W (j 0) (j 1) (pixOf (j 2)) + chw emb W bias (chanOf (j 2)) (pixOf (j 2))) * mask (ix2 (j 0) (chanOf (j 2)))

/-- The image read off a flat array: pixel (r, q) of channel c is lane (c, pix r q) of token tok r q. -/
def depatch (Y : FVec Ideal SFlat .f32) : FVec Ideal SOut .f32 := fun i =>
  Y (ix3 (i 0) (tok (i 2) (i 3)) (lane (i 1) (pix (i 2) (i 3))))

/-- The reference's arrangement. -/
def refForm (x : FVec Ideal SX .f32) (mask : FVec Ideal SMask .f32) (emb : FVec Ideal SEmb .f32) (W : FVec Ideal SW .f32)
    (bias : FVec Ideal SBias .f32) : FVec Ideal SOut .f32 := fun i =>
  ((∑ d : Fin 128, (x (ix3 (i 0) (tok (i 2) (i 3)) d) + emb (ix2 (embRow (i 1)) d)) * W (ix2 (pix (i 2) (i 3)) d))
    + bias (ix1 (pix (i 2) (i 3)))) * mask (ix2 (i 0) (i 1))

/-- Every entry of the array is a real number (neither infinity). -/
def IsReal {s : Shape} (v : FVec Ideal s .f32) : Prop := ∀ i, ∃ r : ℝ, v i = (r : EReal)

/-- On real numbers the product distributes over the sum. -/
theorem add_mul_of_real {a e w : EReal} (ha : ∃ r : ℝ, a = (r : EReal)) (he : ∃ r : ℝ, e = (r : EReal))
    (hw : ∃ r : ℝ, w = (r : EReal)) : (a + e) * w = a * w + e * w := by
  obtain ⟨a, rfl⟩ := ha; obtain ⟨e, rfl⟩ := he; obtain ⟨w, rfl⟩ := hw
  rw [← EReal.coe_add, ← EReal.coe_mul, ← EReal.coe_mul, ← EReal.coe_mul, ← EReal.coe_add, add_mul]

/-- The two arrangements are one function where x, emb and W are real. -/
theorem depatch_flatForm (x : FVec Ideal SX .f32) (mask : FVec Ideal SMask .f32) (emb : FVec Ideal SEmb .f32)
    (W : FVec Ideal SW .f32) (bias : FVec Ideal SBias .f32) (hx : IsReal x) (he : IsReal emb) (hW : IsReal W) :
    depatch (flatForm x mask emb W bias) = refForm x mask emb W bias := by
  funext i
  obtain ⟨b, c, r, q, rfl⟩ : ∃ (b : Fin 32) (c : Fin 16) (r q : Fin 128), i = ix4 b c r q := ⟨i 0, i 1, i 2, i 3, eq_ix4 i⟩
  show (xw x W b (tok r q) (pixOf (lane c (pix r q))) + chw emb W bias (chanOf (lane c (pix r q))) (pixOf (lane c (pix r q))))
      * mask (ix2 b (chanOf (lane c (pix r q))))
    = ((∑ d : Fin 128, (x (ix3 b (tok r q) d) + emb (ix2 (embRow c) d)) * W (ix2 (pix r q) d)) + bias (ix1 (pix r q))) * mask (ix2 b c)
  rw [chanOf_lane, pixOf_lane]
  unfold xw chw
  refine congrArg (· * mask (ix2 b c)) ?_
  rw [← add_assoc, ← Finset.sum_add_distrib]
  refine congrArg (· + bias (ix1 (pix r q))) ?_
  exact Finset.sum_congr rfl fun d _ => (add_mul_of_real (hx _) (he _) (hW _)).symm

end Cert.Spec

end
-- ==== Proof.Finite.lean ====
/-
  From the printed precondition to "every entry is a real number".

  The precondition takes, of each of the five argument arrays, the absolute value of every entry, compares it
  (strictly below) with +∞, and joins all the comparisons by "and". Where the whole conjunction is 1, every
  entry of every array has |v| < +∞, and an extended real whose absolute value is below +∞ is a real number.
-/
import proofs.«106797_j37546604102322_1_alg».proof.Pre_finite_inputs
import proofs.«106797_j37546604102322_1_alg».proof.Proof.Spec
import Idealize.ShloMosaic.Lib.ReduceAll
import Idealize.ShloMosaic.PureOps.Ideal.Laws

noncomputable section

namespace Cert.Finite

open Idealize.ShloMosaic Idealize.ShloMosaic.ValueIdx

/-- The result shape of a reduction over all axes has one index. -/
instance : Subsingleton Cert.Pre_finite_inputs.S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value max a (−a) lies strictly below +∞ is a real number:
    at +∞ the maximum is +∞ by its first argument, at −∞ by its second. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- One entry: where the comparison |v i| < +∞ against the broadcast word of +∞ reads 1, the entry is real. -/
theorem real_of_cmp {s : Shape} (hb : Cert.Pre_finite_inputs.S_.BroadcastsInDim s (![] : Fin 0 → Fin s.rank))
    (v : FVec Ideal s .f32) (i : s.Idx)
    (h : cmpf .olt (Host.absf v)
        (broadcastInDim s ![] hb (constant (F := Ideal) Cert.Pre_finite_inputs.S_ .f32 0x7F800000#32)) i = 1#1) :
    ∃ r : ℝ, v i = (r : EReal) := by
  have h' : Ideal.cmp .olt (max (v i) (-(v i))) (Ideal.ofBits .f32 0x7F800000#32) = 1#1 := h
  rw [ofBits_inf] at h'
  unfold Ideal.cmp at h'
  refine real_of_abs_lt_top (v i) ?_
  by_contra hn
  simp [hn] at h'

/-- The precondition at 1 makes the token array, the embedding table and the head's matrix real. -/
theorem real_of_pre [Cert.Pre_finite_inputs.Facts]
    (x0 : FVec Ideal Cert.Pre_finite_inputs.S32x1024x128 .f32) (x1 : FVec Ideal Cert.Pre_finite_inputs.S32x16 .f32)
    (x2 : FVec Ideal Cert.Pre_finite_inputs.S256x128 .f32) (x3 : FVec Ideal Cert.Pre_finite_inputs.S16x128 .f32)
    (x4 : FVec Ideal Cert.Pre_finite_inputs.S16 .f32)
    (h : Cert.Pre_finite_inputs.fn (F := Ideal) x0 x1 x2 x3 x4 = fun _ => 1#1) :
    Cert.Spec.IsReal x0 ∧ Cert.Spec.IsReal x2 ∧ Cert.Spec.IsReal x3 := by
  have e := congrFun h ValueIdx.ix0
  dsimp only [Cert.Pre_finite_inputs.fn, Cert.Pre_finite_inputs.fn_part1] at e
  -- the five reductions, joined left to right: (((r0 ∧ r1) ∧ r2) ∧ r3) ∧ r4
  obtain ⟨e0123, -⟩ := IntOp.andi_eq_one.1 e
  obtain ⟨e012, e3⟩ := IntOp.andi_eq_one.1 e0123
  obtain ⟨e01, e2⟩ := IntOp.andi_eq_one.1 e012
  obtain ⟨e0, -⟩ := IntOp.andi_eq_one.1 e01
  refine ⟨fun i => ?_, fun i => ?_, fun i => ?_⟩
  · exact real_of_cmp _ x0 i (Host.reduce_andi_all _ _ _ _ _ e0 i)
  · exact real_of_cmp _ x2 i (Host.reduce_andi_all _ _ _ _ _ e2 i)
  · exact real_of_cmp _ x3 i (Host.reduce_andi_all _ _ _ _ _ e3 i)

end Cert.Finite

end
-- ==== Proof.RefValue.lean ====
/-
  The reference's result, read index by index, is the specification's reference arrangement.

  The reference computes, on the token axis,  y[b, c, n, p] = Σ_d (x[b, n, d] + emb[c, d]) · W[p, d] + bias[p],
  then regroups the token axis n = 32 · i + j and the patch axis p = 4 · u + v into the image
  out[b, c, 4 · i + u, 4 · j + v] = y[b, c, 32 · i + j, 4 · u + v], and multiplies by mask[b, c]. Read at a pixel
  (r, q) this is i = r / 4, u = r % 4, j = q / 4, v = q % 4: the token tok r q and the patch position pix r q.
-/
import proofs.«106797_j37546604102322_1_alg».proof.Proof.Gen.ReferenceIdeal.Read
import proofs.«106797_j37546604102322_1_alg».proof.Proof.Spec
import Idealize.ShloMosaic.Lib.ValueIdxRank6
import Idealize.ShloMosaic.Lib.ValueIdxCoords

noncomputable section

open scoped BigOperators

namespace Cert.ReferenceIdeal.RefValue

open Cert.ReferenceIdeal Cert.ReferenceIdeal.Read Cert.Spec Idealize.ShloMosaic Idealize.ShloMosaic.ValueIdx

variable (x0 : FVec Ideal S32x1024x128 .f32) (x1 : FVec Ideal S32x16 .f32) (x2 : FVec Ideal S256x128 .f32)
  (x3 : FVec Ideal S16x128 .f32) (x4 : FVec Ideal S16 .f32)

/-- The mask factor at a pixel of batch b, channel c is mask[b, c]. -/
theorem mask_at (b : Fin 32) (c : Fin 16) (r q : Fin 128) :
    val_main_v14 (F := Ideal) x1 (ix4 b c r q) = x1 (ix2 b c) := by
  rw [val_main_v14_apply, val_main_v13_apply]
  refine congrArg x1 (funext fun a => Fin.ext ?_)
  match a with
  | ⟨0, _⟩ => rfl
  | ⟨1, _⟩ => rfl

/-- The summed operand: token plus the channel's embedding row. -/
theorem sum_at (b : Fin 32) (c : Fin 16) (n : Fin 1024) (d : Fin 128) :
    val_main_v5 (F := Ideal) x0 x2 (ix4 b c n d) = x0 (ix3 b n d) + x2 (ix2 (embRow c) d) := by
  rw [val_main_v5_apply, val_main_v3_apply, val_main_v1_apply, val_main_v4_apply, val_main_v2_apply, val_main_v0_apply]
  show x0 _ + x2 _ = _
  have e0 : idx_main_v1 (idx_main_v3 (ix4 b c n d)) = ix3 b n d := funext fun a => Fin.ext (by
    match a with
    | ⟨0, _⟩ => rfl
    | ⟨1, _⟩ => rfl
    | ⟨2, _⟩ => rfl)
  have e2 : idx_main_v0 (idx_main_v2 (idx_main_v4 (ix4 b c n d))) = ix2 (embRow c) d := funext fun a => Fin.ext (by
    match a with
    | ⟨0, _⟩ => rfl
    | ⟨1, _⟩ => rfl)
  rw [e0, e2]

/-- The bias term at patch position p. -/
theorem bias_at (b : Fin 32) (c : Fin 16) (n : Fin 1024) (p : Fin 16) :
    val_main_v8 (F := Ideal) x4 (ix4 b c n p) = x4 (ix1 p) := by
  rw [val_main_v8_apply, val_main_v7_apply]
  refine congrArg x4 (funext fun a => Fin.ext ?_)
  match a with
  | ⟨0, _⟩ => rfl

/-- The linear head with its bias, on the token axis. -/
theorem head_at (b : Fin 32) (c : Fin 16) (n : Fin 1024) (p : Fin 16) :
    val_main_v9 (F := Ideal) x0 x2 x3 x4 (ix4 b c n p)
      = (∑ d : Fin 128, (x0 (ix3 b n d) + x2 (ix2 (embRow c) d)) * x3 (ix2 p d)) + x4 (ix1 p) := by
  rw [val_main_v9_apply, val_main_v6_apply, bias_at]
  show (∑ k : Fin 128, _) + _ = _
  refine congrArg (· + x4 (ix1 p)) (Finset.sum_congr rfl fun d _ => ?_)
  have el : lidx_main_v6 (ix4 b c n p) d = ix4 b c n d := funext fun a => Fin.ext (by
    match a with
    | ⟨0, _⟩ => rfl
    | ⟨1, _⟩ => rfl
    | ⟨2, _⟩ => rfl
    | ⟨3, _⟩ => rfl)
  have er : ridx_main_v6 (ix4 b c n p) d = ix2 p d := funext fun a => Fin.ext (by
    match a with
    | ⟨0, _⟩ => rfl
    | ⟨1, _⟩ => rfl)
  rw [el, er, sum_at]

/-- The first regrouping: token 32 · i + j, patch position 4 · u + v. -/
theorem split_at (b : Fin 32) (c : Fin 16) (i j : Fin 32) (u v : Fin 4) (n : Fin 1024) (p : Fin 16)
    (hn : n.val = i.val * 32 + j.val) (hp : p.val = u.val * 4 + v.val) :
    val_main_v10 (F := Ideal) x0 x2 x3 x4 (ix6 b c i j u v) = val_main_v9 (F := Ideal) x0 x2 x3 x4 (ix4 b c n p) := by
  unfold val_main_v10
  refine shapeCast_apply _ _ (ix6 b c i j u v) (ix4 b c n p) ?_
  rw [Shape.rowMajor_val_four, Shape.rowMajor_val_six]
  show ((b.val * 16 + c.val) * 1024 + n.val) * 16 + p.val
    = ((((b.val * 16 + c.val) * 32 + i.val) * 32 + j.val) * 4 + u.val) * 4 + v.val
  omega

/-- The second regrouping: image row 4 · i + u, image column 4 · j + v. -/
theorem merge_at (b : Fin 32) (c : Fin 16) (i : Fin 32) (u : Fin 4) (j : Fin 32) (v : Fin 4) (r q : Fin 128)
    (hr : r.val = i.val * 4 + u.val) (hq : q.val = j.val * 4 + v.val) :
    val_main_v12 (F := Ideal) x0 x2 x3 x4 (ix4 b c r q) = val_main_v11 (F := Ideal) x0 x2 x3 x4 (ix6 b c i u j v) := by
  unfold val_main_v12
  refine shapeCast_apply _ _ (ix4 b c r q) (ix6 b c i u j v) ?_
  rw [Shape.rowMajor_val_four, Shape.rowMajor_val_six]
  show ((((b.val * 16 + c.val) * 32 + i.val) * 4 + u.val) * 32 + j.val) * 4 + v.val
    = ((b.val * 16 + c.val) * 128 + r.val) * 128 + q.val
  omega

/-- The exchange of the two middle axes. -/
theorem swap_at (b : Fin 32) (c : Fin 16) (i : Fin 32) (u : Fin 4) (j : Fin 32) (v : Fin 4) :
    val_main_v11 (F := Ideal) x0 x2 x3 x4 (ix6 b c i u j v) = val_main_v10 (F := Ideal) x0 x2 x3 x4 (ix6 b c i j u v) := by
  rw [val_main_v11_apply]
  refine congrArg (val_main_v10 (F := Ideal) x0 x2 x3 x4) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The image before the mask: pixel (r, q) is patch position pix r q of token tok r q. -/
theorem image_at (b : Fin 32) (c : Fin 16) (r q : Fin 128) :
    val_main_v12 (F := Ideal) x0 x2 x3 x4 (ix4 b c r q)
      = val_main_v9 (F := Ideal) x0 x2 x3 x4 (ix4 b c (tok r q) (pix r q)) := by
  have hr := r.isLt
  have hq := q.isLt
  rw [merge_at x0 x2 x3 x4 b c ⟨r.val / 4, by omega⟩ ⟨r.val % 4, by omega⟩ ⟨q.val / 4, by omega⟩ ⟨q.val % 4, by omega⟩ r q
      (by show r.val = r.val / 4 * 4 + r.val % 4; omega) (by show q.val = q.val / 4 * 4 + q.val % 4; omega),
    swap_at,
    split_at x0 x2 x3 x4 b c ⟨r.val / 4, by omega⟩ ⟨q.val / 4, by omega⟩ ⟨r.val % 4, by omega⟩ ⟨q.val % 4, by omega⟩
      (tok r q) (pix r q) rfl rfl]

/-- The reference's result is the specification's reference arrangement. -/
theorem val_eq_refForm (x0 : FVec Ideal S32x1024x128 .f32) (x1 : FVec Ideal S32x16 .f32) (x2 : FVec Ideal S256x128 .f32)
    (x3 : FVec Ideal S16x128 .f32) (x4 : FVec Ideal S16 .f32) :
    val_main_v15 (F := Ideal) x0 x1 x2 x3 x4 = Cert.Spec.refForm x0 x1 x2 x3 x4 := by
  funext i
  obtain ⟨b, c, r, q, rfl⟩ : ∃ (b : Fin 32) (c : Fin 16) (r q : Fin 128), i = ix4 b c r q :=
    ⟨i 0, i 1, i 2, i 3, eq_ix4 i⟩
  rw [val_main_v15_apply, mask_at, image_at, head_at]
  rfl

end Cert.ReferenceIdeal.RefValue

end
-- ==== Proof.KernelBlocks.lean ====
/-
  The geometry of the one pallas_call's windows on its grid of 32 points, one point per batch entry.
  At point t the token window (0), the mask window (3) and the output window (4) hold the t-th slab of their
  arrays along the leading axis; the tiled-weight window (1) and the channel-head window (2) hold their whole
  arrays at every point. A block's coordinate in its array is always  block index × block size + coordinate
  inside the block. The output's 32 slabs tile its array: index (b, n, j) lies in point b's block.
-/
import proofs.«106797_j37546604102322_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx Idealize.ShloMosaic.TcCoe
open Idealize.ShloMosaic.Pipeline (Dat Cfg Window)

variable {F : FTy → Type} [FloatOps F]

/-- The printed index maps, decided once over the 32 grid points. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- A grid point as a batch index. -/
def pt (t : Fin cfg0.N) : Fin 32 := ⟨t.val, by have h := t.isLt; have e : cfg0.N = 32 := N_0; omega⟩

/-- The token window's block at point t sits at batch t. -/
theorem emb0 (t : Fin cfg0.N) (u : Fin 1) (n : Fin 1024) (d : Fin 128) :
    ((cfg0.win 0).blk t).view.emb (ix3 u n d) = ix3 (pt t) n d := by
  obtain ⟨e0, e1, e2, -⟩ := idx_facts t
  funext a; apply Fin.ext
  match a with
  | ⟨0, _⟩ => show win0_0.index t (0 : Fin 3) * 1 + 1 * u.val = t.val; omega
  | ⟨1, _⟩ => show win0_0.index t (1 : Fin 3) * 1024 + 1 * n.val = n.val; omega
  | ⟨2, _⟩ => show win0_0.index t (2 : Fin 3) * 128 + 1 * d.val = d.val; omega

/-- The tiled-weight window holds its whole array. -/
theorem emb1 (t : Fin cfg0.N) (d : Fin 128) (j : Fin 256) :
    ((cfg0.win 1).blk t).view.emb (ix2 d j) = ix2 d j := by
  obtain ⟨-, -, -, e0, e1, -⟩ := idx_facts t
  funext a; apply Fin.ext
  match a with
  | ⟨0, _⟩ => show win0_1.index t (0 : Fin 2) * 128 + 1 * d.val = d.val; omega
  | ⟨1, _⟩ => show win0_1.index t (1 : Fin 2) * 256 + 1 * j.val = j.val; omega

/-- The channel-head window holds its whole one-row array. -/
theorem emb2 (t : Fin cfg0.N) (u : Fin 1) (j : Fin 256) :
    ((cfg0.win 2).blk t).view.emb (ix2 u j) = ix2 u j := by
  obtain ⟨-, -, -, -, -, e0, e1, -⟩ := idx_facts t
  funext a; apply Fin.ext
  match a with
  | ⟨0, _⟩ => show win0_2.index t (0 : Fin 2) * 1 + 1 * u.val = u.val; omega
  | ⟨1, _⟩ => show win0_2.index t (1 : Fin 2) * 256 + 1 * j.val = j.val; omega

/-- The mask window's block at point t is the t-th row of the expanded mask. -/
theorem emb3 (t : Fin cfg0.N) (u v : Fin 1) (j : Fin 256) :
    ((cfg0.win 3).blk t).view.emb (ix3 u v j) = ix3 (pt t) v j := by
  obtain ⟨-, -, -, -, -, -, -, e0, e1, e2, -⟩ := idx_facts t
  funext a; apply Fin.ext
  match a with
  | ⟨0, _⟩ => show win0_3.index t (0 : Fin 3) * 1 + 1 * u.val = t.val; omega
  | ⟨1, _⟩ => show win0_3.index t (1 : Fin 3) * 1 + 1 * v.val = v.val; omega
  | ⟨2, _⟩ => show win0_3.index t (2 : Fin 3) * 256 + 1 * j.val = j.val; omega

/-- The output window's block at point t sits at batch t. -/
theorem emb4 (t : Fin cfg0.N) (u : Fin 1) (n : Fin 1024) (j : Fin 256) :
    ((cfg0.win 4).blk t).view.emb (ix3 u n j) = ix3 (pt t) n j := by
  obtain ⟨-, -, -, -, -, -, -, -, -, -, e0, e1, e2⟩ := idx_facts t
  funext a; apply Fin.ext
  match a with
  | ⟨0, _⟩ => show win0_4.index t (0 : Fin 3) * 1 + 1 * u.val = t.val; omega
  | ⟨1, _⟩ => show win0_4.index t (1 : Fin 3) * 1024 + 1 * n.val = n.val; omega
  | ⟨2, _⟩ => show win0_4.index t (2 : Fin 3) * 256 + 1 * j.val = j.val; omega

/-- An index of the output array is in point t's block iff each coordinate is in the block's range on its axis. -/
theorem mem_blk4 (t : Fin cfg0.N) (i : S32x1024x256.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v15).slice (win0_4.rect t)).set ↔ _
  rw [View.set_slice_whole, Rect.mem_set_unit]
  exact Iff.rfl

/-- The output's blocks tile its array: index (b, n, j) is in the block of point b, which is written back. -/
theorem cover4 (i : S32x1024x256.Idx) :
    ∃ t : Fin cfg0.N, (cfg0.win 4).flush t = true ∧ i ∈ ((cfg0.win 4).blk t).view.set := by
  have hi0 : (i 0).val < 32 := (i 0).isLt
  have hi1 : (i 1).val < 1024 := (i 1).isLt
  have hi2 : (i 2).val < 256 := (i 2).isLt
  have hN : cfg0.N = 32 := N_0
  let t : Fin cfg0.N := ⟨(i 0).val, by omega⟩
  obtain ⟨-, -, -, -, -, -, -, -, -, -, e0, e1, e2⟩ := idx_facts t
  have ht : t.val = (i 0).val := rfl
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 256 ≤ (i 2).val ∧ (i 2).val < win0_4.index t (2 : Fin 3) * 256 + 256; omega

end Cert.KernelIdeal.Blocks

end
-- ==== Proof.KernelBody.lean ====
/-
  The kernel body's one store, read at an index. On a block the body computes, for token row n and flat lane j,
      (Σ_d x[n, d] · wt[d, j] + chw[j]) · mask[j]
  — the product of the token block with the tiled weight (a matrix product into a zero accumulator, so at the
  ideal values a plain sum over the contracted axis d), plus the one-row channel head broadcast over the rows,
  times the one-row mask broadcast over the rows. The unit leading axes of the blocks are dropped and put back
  by shape casts, and the change of float format of the token block is the identity.
-/
import proofs.«106797_j37546604102322_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## The matrix product's operand indices, axis by axis

The left operand [1024, 128] is contracted on its axis 1, the right [128, 256] on its axis 0; the output's row
is the left operand's row and its column the right operand's column. -/

theorem lhs_row (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem lhs_contr (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
theorem rhs_contr (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
theorem rhs_col (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- The matrix product into a zero accumulator, at row n and column j, is the sum over d of a[n, d] · b[d, j]. -/
theorem matmul_zero_apply (a : FVec Ideal S1024x128 .bf16) (b : FVec Ideal S128x256 .bf16) (n : Fin 1024) (j : Fin 256) :
    matmul (F := Ideal) dot_S1024x128_S128x256_S1024x256_1_0_0_1_n_n none a b (constant (F := Ideal) S1024x256 .f32 0x00000000#32) (ix2 n j)
      = ∑ d : Fin 128, a (ix2 n d) * b (ix2 d j) := by
  simp only [matmul]
  rw [Ideal.matmul_constant_zero_apply, ← Equiv.sum_comp (ValueIdx.contrEquiv1 dot_S1024x128_S128x256_S1024x256_1_0_0_1_n_n 128 rfl rfl).symm]
  refine Finset.sum_congr rfl fun k _ => ?_
  have hk := ValueIdx.contrEquiv1_symm_val dot_S1024x128_S128x256_S1024x256_1_0_0_1_n_n 128 rfl rfl k
  have el : dot_S1024x128_S128x256_S1024x256_1_0_0_1_n_n.lhsIdx (ix2 n j) ((ValueIdx.contrEquiv1 dot_S1024x128_S128x256_S1024x256_1_0_0_1_n_n 128 rfl rfl).symm k) = ix2 n k := funext fun ax => Fin.ext (by
    match ax with
    | ⟨0, _⟩ => exact lhs_row _ _
    | ⟨1, _⟩ => exact (lhs_contr _ _).trans hk)
  have er : dot_S1024x128_S128x256_S1024x256_1_0_0_1_n_n.rhsIdx (ix2 n j) ((ValueIdx.contrEquiv1 dot_S1024x128_S128x256_S1024x256_1_0_0_1_n_n 128 rfl rfl).symm k) = ix2 k j := funext fun ax => Fin.ext (by
    match ax with
    | ⟨0, _⟩ => exact (rhs_contr _ _).trans hk
    | ⟨1, _⟩ => exact rhs_col _ _)
  rw [el, er]

/-- The stored value at row n and lane j of the block, from the four loaded blocks. -/
theorem pay_apply (x0 : Vec Ideal S1x1024x128 .f32) (x1 : Vec Ideal S128x256 .bf16) (x2 : Vec Ideal S1x256 .f32) (x3 : Vec Ideal S1x1x256 .f32)
    (u : Fin 1) (n : Fin 1024) (j : Fin 256) :
    k0_pay1 (F := Ideal) x0 x1 x2 x3 (ix3 u n j)
      = ((∑ d : Fin 128, x0 (ix3 (0 : Fin 1) n d) * x1 (ix2 d j)) + x2 (ix2 (0 : Fin 1) j)) * x3 (ix3 (0 : Fin 1) (0 : Fin 1) j) := by
  unfold k0_pay1
  refine (shapeCast_ab_1ab_apply _ _ u n j).trans ?_
  refine congrArg₂ (· * ·) (congrArg₂ (· + ·) ?_ ?_) ?_
  · refine (matmul_zero_apply _ _ n j).trans (Finset.sum_congr rfl fun d _ => congrArg₂ (· * ·) ?_ ?_)
    · exact shapeCast_1ab_ab_apply x0 _ n d
    · exact congrFun (shapeCast_self x1 _) _
  · exact (broadcastTo_1b_ab_apply _ _ n j).trans (congrFun (shapeCast_self x2 _) _)
  · exact (broadcastTo_1b_ab_apply _ _ n j).trans (shapeCast_1ab_ab_apply x3 _ (0 : Fin 1) j)

end Cert.KernelIdeal.BodyValue

end
-- ==== Proof.KernelHost.lean ====
/-
  The three arrays the program computes on the host before its one kernel region, each read at an index, at the
  ideal instance (a float an extended real, a change of format the identity).

  With W the 16 × 128 weight, emb the 256 × 128 embedding table, bias the 16 biases and mask the 32 × 16 mask, and a
  flat lane j = c · 16 + p of width 256 (channel c = j / 16, patch position p = j % 16):
    the tiled weight     wt[d, j]      = W[j % 16, d]                                   (128 × 256),
    the channel head     head[0, j]    = Σ_d emb[j / 16, d] · W[j % 16, d] + bias[j % 16] (1 × 256),
    the expanded mask    msk[b, 0, j]  = mask[b, j / 16]                                (32 × 1 × 256).
  Each is first identified with the composition of the operations that write it (transpose, reshape, broadcast,
  slice, contraction, sum), and that composition is then read one operation at a time, outermost first: a reshape
  keeps the row-major position, a broadcast drops the new coordinate, a transpose swaps the two coordinates, a slice
  from offset 0 keeps them, and the contraction is the sum over its one shared axis.
-/
import proofs.«106797_j37546604102322_1_alg».proof.Proof.Gen.KernelIdeal.Frame
import proofs.«106797_j37546604102322_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

open scoped BigOperators

namespace Cert.KernelIdeal.HostValue

open Cert.KernelIdeal Cert.KernelIdeal.Gen Cert.Spec Idealize.ShloMosaic Idealize.ShloMosaic.ValueIdx
  Idealize.ShloMosaic.TcCoe Idealize.SL.Sem

variable (m : (ℓ : Loc nD τ sig) → Buf (Elt Ideal) ℓ)

abbrev argMask (c : Dev nD) : FVec Ideal S32x16 .f32 := m ((c : Thread nD τ).loc main_arg1)
abbrev argEmb (c : Dev nD) : FVec Ideal S256x128 .f32 := m ((c : Thread nD τ).loc main_arg2)
abbrev argW (c : Dev nD) : FVec Ideal S16x128 .f32 := m ((c : Thread nD τ).loc main_arg3)
abbrev argBias (c : Dev nD) : FVec Ideal S16 .f32 := m ((c : Thread nD τ).loc main_arg4)

/-! ## The three host arrays as the operations' composed terms -/

/-- The expanded mask: the mask broadcast along a new last axis of 16, flattened to 256 lanes, with a unit axis inserted. -/
theorem mask_term (c : Dev nD) :
    (V m c main_v14 : FVec Ideal S32x1x256 .f32)
      = shapeCast S32x1x256 (shapeCast S32x256 (broadcastInDim S32x16x16 ![0, 1] bcast_S32x16_S32x16x16_0_1 (argMask m c))
          shapeCasts_S32x16x16_S32x256) shapeCasts_S32x256_S32x1x256 := by
  show StableHlo.after hostOps0 (fun b => m (c, b)) (Proc.devRef .tc main_v14) = _
  after_results
  rfl

/-- The tiled weight: the transposed weight, repeated 16 times along the lane axis, in the narrow format. -/
theorem wt_term (c : Dev nD) :
    (V m c main_v11 : FVec Ideal S128x256 .bf16)
      = truncf .bf16 (shapeCast S128x256 (broadcastInDim S1x128x16x16 ![0, 1, 2, 3] bcast_S1x128x1x16_S1x128x16x16_0_1_2_3
          (shapeCast S1x128x1x16 (transpose S128x16 [1, 0] (argW m c) transposes_S16x128_S128x16_1_0)
            shapeCasts_S128x16_S1x128x1x16)) shapeCasts_S1x128x16x16_S128x256) bitsLt_bf16_f32 := by
  show StableHlo.after hostOps0 (fun b => m (c, b)) (Proc.devRef .tc main_v11) = _
  after_results
  rfl

/-- The channel head: the first 16 embedding rows times the transposed weight, plus the bias along rows, flattened. -/
theorem chw_term (c : Dev nD) :
    (V m c main_v6 : FVec Ideal S1x256 .f32)
      = shapeCast S1x256 (addf
          (Host.dotGeneral (F := Ideal) dot_S16x128_S128x16_S16x16_1_0_0_1_n_n none
            (extractStridedSlice S16x128 ![0, 0] (argEmb m c) slices_S256x128_S16x128_0_0)
            (transpose S128x16 [1, 0] (argW m c) transposes_S16x128_S128x16_1_0))
          (broadcastInDim S16x16 ![0, 1] bcast_S1x16_S16x16_0_1 (broadcastInDim S1x16 ![1] bcast_S16_S1x16_1 (argBias m c))))
          shapeCasts_S16x16_S1x256 := by
  show StableHlo.after hostOps0 (fun b => m (c, b)) (Proc.devRef .tc main_v6) = _
  after_results
  rfl

/-! ## Lane arithmetic -/

theorem lane_split (j : Fin 256) : (chanOf j).val * 16 + (pixOf j).val = j.val := by
  show j.val / 16 * 16 + j.val % 16 = j.val
  omega

/-! ## Each array read at an index, over variables of the literal types -/

/-- The mask broadcast along a last axis of 16, flattened, with a unit axis: entry (b, 0, j) is the mask at
    (b, j / 16). -/
theorem mask_read (x : FVec Ideal S32x16 .f32) (b : Fin 32) (j : Fin 256) :
    shapeCast S32x1x256 (shapeCast S32x256 (broadcastInDim S32x16x16 ![0, 1] bcast_S32x16_S32x16x16_0_1 x)
        shapeCasts_S32x16x16_S32x256) shapeCasts_S32x256_S32x1x256 (ix3 b 0 j) = x (ix2 b (chanOf j)) := by
  refine (shapeCast_apply _ shapeCasts_S32x256_S32x1x256 (ix3 b 0 j) (ix2 b j) ?_).trans ?_
  · rw [Shape.rowMajor_val_two, Shape.rowMajor_val_three]
    show b.val * 256 + j.val = (b.val * 1 + 0) * 256 + j.val
    omega
  refine (shapeCast_apply _ shapeCasts_S32x16x16_S32x256 (ix2 b j) (ix3 b (chanOf j) (pixOf j)) ?_).trans ?_
  · rw [Shape.rowMajor_val_three, Shape.rowMajor_val_two]
    show (b.val * 16 + (chanOf j).val) * 16 + (pixOf j).val = b.val * 256 + j.val
    have := lane_split j
    omega
  exact broadcastInDim_apply _ bcast_S32x16_S32x16x16_0_1 x (ix3 b (chanOf j) (pixOf j)) (ix2 b (chanOf j)) (fun a => match a with
    | ⟨0, _⟩ => by show b.val = if (32 : Nat) = 1 then 0 else b.val; rw [if_neg (by decide)]
    | ⟨1, _⟩ => by show (chanOf j).val = if (16 : Nat) = 1 then 0 else (chanOf j).val; rw [if_neg (by decide)])

/-- The transposed weight repeated 16 times along the lanes: entry (d, j) is the weight at (j % 16, d). -/
theorem wt_read (w : FVec Ideal S16x128 .f32) (d : Fin 128) (j : Fin 256) :
    (truncf .bf16 (shapeCast S128x256 (broadcastInDim S1x128x16x16 ![0, 1, 2, 3] bcast_S1x128x1x16_S1x128x16x16_0_1_2_3
        (shapeCast S1x128x1x16 (transpose S128x16 [1, 0] w transposes_S16x128_S128x16_1_0)
          shapeCasts_S128x16_S1x128x1x16)) shapeCasts_S1x128x16x16_S128x256) bitsLt_bf16_f32 : FVec Ideal S128x256 .bf16) (ix2 d j)
      = w (ix2 (pixOf j) d) := by
  rw [truncf_apply]
  refine (shapeCast_apply _ shapeCasts_S1x128x16x16_S128x256 (ix2 d j) (ix4 (0 : Fin 1) d (chanOf j) (pixOf j)) ?_).trans ?_
  · rw [Shape.rowMajor_val_four, Shape.rowMajor_val_two]
    show (((0 : Fin 1).val * 128 + d.val) * 16 + (chanOf j).val) * 16 + (pixOf j).val = d.val * 256 + j.val
    have := lane_split j
    show ((0 * 128 + d.val) * 16 + (chanOf j).val) * 16 + (pixOf j).val = d.val * 256 + j.val
    omega
  refine (broadcastInDim_apply _ bcast_S1x128x1x16_S1x128x16x16_0_1_2_3 _ (ix4 (0 : Fin 1) d (chanOf j) (pixOf j))
    (ix4 (0 : Fin 1) d (0 : Fin 1) (pixOf j)) (fun a => match a with
    | ⟨0, _⟩ => by show 0 = if (1 : Nat) = 1 then 0 else 0; rw [if_pos rfl]
    | ⟨1, _⟩ => by show d.val = if (128 : Nat) = 1 then 0 else d.val; rw [if_neg (by decide)]
    | ⟨2, _⟩ => by show 0 = if (1 : Nat) = 1 then 0 else (chanOf j).val; rw [if_pos rfl]
    | ⟨3, _⟩ => by show (pixOf j).val = if (16 : Nat) = 1 then 0 else (pixOf j).val; rw [if_neg (by decide)])).trans ?_
  refine (shapeCast_apply _ shapeCasts_S128x16_S1x128x1x16 (ix4 (0 : Fin 1) d (0 : Fin 1) (pixOf j)) (ix2 d (pixOf j)) ?_).trans ?_
  · rw [Shape.rowMajor_val_two, Shape.rowMajor_val_four]
    show d.val * 16 + (pixOf j).val = ((0 * 128 + d.val) * 1 + 0) * 16 + (pixOf j).val
    omega
  exact transpose_ix2_apply w transposes_S16x128_S128x16_1_0 d (pixOf j)

/-! ## The host contraction: its operand indices axis by axis -/

theorem lhs_dot_0 (i : S16x16.Idx) (q : dot_S16x128_S128x16_S16x16_1_0_0_1_n_n.contr.Idx) :
    (dot_S16x128_S128x16_S16x16_1_0_0_1_n_n.lhsIdx i q 0).val = (i 0).val := by
  unfold DotDims.lhsIdx
  rw [dif_neg (show ¬(0 : Fin S16x128.rank) ∈ dot_S16x128_S128x16_S16x16_1_0_0_1_n_n.lhsBatch by decide),
    dif_pos (show (0 : Fin S16x128.rank) ∈ dot_S16x128_S128x16_S16x16_1_0_0_1_n_n.lhsNonContracting by decide)]
  rfl
theorem lhs_dot_1 (i : S16x16.Idx) (q : dot_S16x128_S128x16_S16x16_1_0_0_1_n_n.contr.Idx) :
    (dot_S16x128_S128x16_S16x16_1_0_0_1_n_n.lhsIdx i q 1).val = (q ⟨0, by decide⟩).val :=
  dot_S16x128_S128x16_S16x16_1_0_0_1_n_n.lhsIdx_val_of_single rfl i q
theorem rhs_dot_0 (i : S16x16.Idx) (q : dot_S16x128_S128x16_S16x16_1_0_0_1_n_n.contr.Idx) :
    (dot_S16x128_S128x16_S16x16_1_0_0_1_n_n.rhsIdx i q 0).val = (q ⟨0, by decide⟩).val :=
  dot_S16x128_S128x16_S16x16_1_0_0_1_n_n.rhsIdx_val_of_single rfl i q
theorem rhs_dot_1 (i : S16x16.Idx) (q : dot_S16x128_S128x16_S16x16_1_0_0_1_n_n.contr.Idx) :
    (dot_S16x128_S128x16_S16x16_1_0_0_1_n_n.rhsIdx i q 1).val = (i 1).val := by
  unfold DotDims.rhsIdx
  rw [dif_neg (show ¬(1 : Fin S128x16.rank) ∈ dot_S16x128_S128x16_S16x16_1_0_0_1_n_n.rhsBatch by decide),
    dif_pos (show (1 : Fin S128x16.rank) ∈ dot_S16x128_S128x16_S16x16_1_0_0_1_n_n.rhsNonContracting by decide)]
  rfl

/-- The host contraction of a 16 × 128 by a 128 × 16 matrix at (a, p): the sum over the shared axis. -/
theorem dot_read (l : FVec Ideal S16x128 .f32) (r : FVec Ideal S128x16 .f32) (a p : Fin 16) :
    Host.dotGeneral (F := Ideal) dot_S16x128_S128x16_S16x16_1_0_0_1_n_n none l r (ix2 a p)
      = ∑ k : Fin 128, l (ix2 a k) * r (ix2 k p) := by
  simp only [Host.dotGeneral]
  rw [Ideal.dotGeneral_apply, ← Equiv.sum_comp (ValueIdx.contrEquiv1 dot_S16x128_S128x16_S16x16_1_0_0_1_n_n 128 rfl rfl).symm]
  refine Finset.sum_congr rfl fun k _ => ?_
  have hk := ValueIdx.contrEquiv1_symm_val dot_S16x128_S128x16_S16x16_1_0_0_1_n_n 128 rfl rfl k
  have el : dot_S16x128_S128x16_S16x16_1_0_0_1_n_n.lhsIdx (ix2 a p)
      ((ValueIdx.contrEquiv1 dot_S16x128_S128x16_S16x16_1_0_0_1_n_n 128 rfl rfl).symm k) = ix2 a k := funext fun b => Fin.ext (by
    match b with
    | ⟨0, _⟩ => exact lhs_dot_0 _ _
    | ⟨1, _⟩ => exact (lhs_dot_1 _ _).trans hk)
  have er : dot_S16x128_S128x16_S16x16_1_0_0_1_n_n.rhsIdx (ix2 a p)
      ((ValueIdx.contrEquiv1 dot_S16x128_S128x16_S16x16_1_0_0_1_n_n 128 rfl rfl).symm k) = ix2 k p := funext fun b => Fin.ext (by
    match b with
    | ⟨0, _⟩ => exact (rhs_dot_0 _ _).trans hk
    | ⟨1, _⟩ => exact rhs_dot_1 _ _)
  rw [el, er]

/-- The first 16 rows of the embedding table: row a of the slice is row a of the table. -/
theorem slice_read (e : FVec Ideal S256x128 .f32) (a : Fin 16) (k : Fin 128) :
    extractStridedSlice S16x128 ![0, 0] e slices_S256x128_S16x128_0_0 (ix2 a k) = e (ix2 (embRow a) k) :=
  extractStridedSlice_apply ![0, 0] e slices_S256x128_S16x128_0_0 (ix2 a k) (ix2 (embRow a) k) (fun b => match b with
    | ⟨0, _⟩ => by show a.val = 0 + a.val; omega
    | ⟨1, _⟩ => by show k.val = 0 + k.val; omega)

/-- The bias laid along the rows of a 16 × 16 array: entry (a, p) is the bias at p. -/
theorem bias_read (v : FVec Ideal S16 .f32) (a p : Fin 16) :
    broadcastInDim S16x16 ![0, 1] bcast_S1x16_S16x16_0_1 (broadcastInDim S1x16 ![1] bcast_S16_S1x16_1 v) (ix2 a p) = v (ix1 p) := by
  refine (broadcastInDim_apply _ bcast_S1x16_S16x16_0_1 _ (ix2 a p) (ix2 (0 : Fin 1) p) (fun b => match b with
    | ⟨0, _⟩ => by show 0 = if (1 : Nat) = 1 then 0 else a.val; rw [if_pos rfl]
    | ⟨1, _⟩ => by show p.val = if (16 : Nat) = 1 then 0 else p.val; rw [if_neg (by decide)])).trans ?_
  exact broadcastInDim_apply _ bcast_S16_S1x16_1 v (ix2 (0 : Fin 1) p) (ix1 p) (fun b => match b with
    | ⟨0, _⟩ => by show p.val = if (16 : Nat) = 1 then 0 else p.val; rw [if_neg (by decide)])

/-- The channel head flattened to 256 lanes: lane j holds the head of channel j / 16 at patch position j % 16. -/
theorem chw_read (e : FVec Ideal S256x128 .f32) (w : FVec Ideal S16x128 .f32) (v : FVec Ideal S16 .f32) (j : Fin 256) :
    shapeCast S1x256 (addf
        (Host.dotGeneral (F := Ideal) dot_S16x128_S128x16_S16x16_1_0_0_1_n_n none
          (extractStridedSlice S16x128 ![0, 0] e slices_S256x128_S16x128_0_0)
          (transpose S128x16 [1, 0] w transposes_S16x128_S128x16_1_0))
        (broadcastInDim S16x16 ![0, 1] bcast_S1x16_S16x16_0_1 (broadcastInDim S1x16 ![1] bcast_S16_S1x16_1 v)))
        shapeCasts_S16x16_S1x256 (ix2 0 j)
      = Cert.Spec.chw e w v (chanOf j) (pixOf j) := by
  refine (shapeCast_apply _ shapeCasts_S16x16_S1x256 (ix2 (0 : Fin 1) j) (ix2 (chanOf j) (pixOf j)) ?_).trans ?_
  · rw [Shape.rowMajor_val_two, Shape.rowMajor_val_two]
    show (chanOf j).val * 16 + (pixOf j).val = 0 * 256 + j.val
    have := lane_split j
    omega
  rw [addf_apply, dot_read, bias_read]
  unfold Cert.Spec.chw
  refine congrArg (· + v (ix1 (pixOf j))) ?_
  refine Finset.sum_congr rfl fun k _ => ?_
  rw [slice_read, transpose_ix2_apply]

/-! ## The three arrays at an index -/

theorem wt_apply (c : Dev nD) (d : Fin 128) (j : Fin 256) :
    (V m c main_v11 : FVec Ideal S128x256 .bf16) (ix2 d j) = argW m c (ix2 (pixOf j) d) := by
  rw [wt_term]
  exact wt_read (argW m c) d j

theorem chw_apply (c : Dev nD) (j : Fin 256) :
    (V m c main_v6 : FVec Ideal S1x256 .f32) (ix2 0 j)
      = Cert.Spec.chw (argEmb m c) (argW m c) (argBias m c) (chanOf j) (pixOf j) := by
  rw [chw_term]
  exact chw_read (argEmb m c) (argW m c) (argBias m c) j

theorem mask_apply (c : Dev nD) (b : Fin 32) (j : Fin 256) :
    (V m c main_v14 : FVec Ideal S32x1x256 .f32) (ix3 b 0 j) = argMask m c (ix2 b (chanOf j)) := by
  rw [mask_term]
  exact mask_read (argMask m c) b j

end Cert.KernelIdeal.HostValue

end
-- ==== Proof.KernelTail.lean ====
/-
  The kernel's host tail — the flat [32, 1024, 256] array viewed as [32, 32, 32, 16, 4, 4] (batch, patch row, patch
  column, channel, row in patch, column in patch), its axes permuted to (batch, channel, patch row, row in patch,
  patch column, column in patch), and that viewed as the [32, 16, 128, 128] image — reads, at pixel (r, q) of
  channel c of batch b, the flat array at token (r / 4) · 32 + q / 4 and lane c · 16 + (r % 4) · 4 + q % 4.
  Each view keeps the row-major position; the permutation moves coordinates only.
-/
import proofs.«106797_j37546604102322_1_alg».proof.KernelIdeal
import proofs.«106797_j37546604102322_1_alg».proof.Proof.Spec
import Idealize.ShloMosaic.Lib.Pipeline.Value
import Idealize.ShloMosaic.Lib.ValueIdx
import Idealize.ShloMosaic.Lib.ValueIdxRank6

noncomputable section

namespace Cert.KernelIdeal.TailValue

open Cert.KernelIdeal Cert.Spec Idealize.ShloMosaic Idealize.ShloMosaic.ValueIdx

variable [Cert.KernelIdeal.Facts]
open Facts₀

/-- The image as the six-axis array, at pixel (r, q): patch row r / 4, row in patch r % 4, patch column q / 4,
    column in patch q % 4. -/
theorem image_of_six {α : Type} (Z : S32x16x32x4x32x4.Idx → α) (b : Fin 32) (c : Fin 16) (r q : Fin 128) :
    shapeCast S32x16x128x128 Z shapeCasts_S32x16x32x4x32x4_S32x16x128x128 (ix4 b c r q)
      = Z (ix6 b c (⟨r.val / 4, by have := r.isLt; omega⟩ : Fin 32) (⟨r.val % 4, by omega⟩ : Fin 4)
            (⟨q.val / 4, by have := q.isLt; omega⟩ : Fin 32) (⟨q.val % 4, by omega⟩ : Fin 4)) :=
  shapeCast_apply Z _ _ _ (by
    rw [Shape.rowMajor_val_six, Shape.rowMajor_val_four]
    show ((((b.val * 16 + c.val) * 32 + r.val / 4) * 4 + r.val % 4) * 32 + q.val / 4) * 4 + q.val % 4
      = ((b.val * 16 + c.val) * 128 + r.val) * 128 + q.val
    omega)

/-- The permutation (0, 3, 1, 4, 2, 5): the result's axes (batch, channel, patch row, row in patch, patch column,
    column in patch) are the source's axes 0, 3, 1, 4, 2, 5. -/
theorem permuted_of_six {α : Type} (X : S32x32x32x16x4x4.Idx → α) (b : Fin 32) (c : Fin 16) (h : Fin 32) (pr : Fin 4) (w : Fin 32) (pc : Fin 4) :
    transpose S32x16x32x4x32x4 [0, 3, 1, 4, 2, 5] X transposes_S32x32x32x16x4x4_S32x16x32x4x32x4_0_3_1_4_2_5 (ix6 b c h pr w pc)
      = X (ix6 b h w c pr pc) :=
  transpose_apply _ X _ _ _ (fun a => match a with
    | ⟨0, _⟩ => rfl
    | ⟨1, _⟩ => rfl
    | ⟨2, _⟩ => rfl
    | ⟨3, _⟩ => rfl
    | ⟨4, _⟩ => rfl
    | ⟨5, _⟩ => rfl)

/-- The six-axis view of the flat array: token h · 32 + w, lane c · 16 + pr · 4 + pc. -/
theorem six_of_flat {α : Type} (Y : S32x1024x256.Idx → α) (b : Fin 32) (h w : Fin 32) (c : Fin 16) (pr pc : Fin 4)
    (n : Fin 1024) (j : Fin 256) (hn : n.val = h.val * 32 + w.val) (hj : j.val = c.val * 16 + (pr.val * 4 + pc.val)) :
    shapeCast S32x32x32x16x4x4 Y shapeCasts_S32x1024x256_S32x32x32x16x4x4 (ix6 b h w c pr pc) = Y (ix3 b n j) :=
  shapeCast_apply Y _ _ _ (by
    rw [Shape.rowMajor_val_three, Shape.rowMajor_val_six]
    show (b.val * 1024 + n.val) * 256 + j.val
      = ((((b.val * 32 + h.val) * 32 + w.val) * 16 + c.val) * 4 + pr.val) * 4 + pc.val
    have := pr.isLt; have := pc.isLt
    omega)

/-- The three together: the tail of the flat array is the image read off it. -/
theorem tail_eq_depatch (Y : FVec Ideal S32x1024x256 .f32) :
    shapeCast S32x16x128x128
        (transpose S32x16x32x4x32x4 [0, 3, 1, 4, 2, 5]
          (shapeCast S32x32x32x16x4x4 Y shapeCasts_S32x1024x256_S32x32x32x16x4x4)
          transposes_S32x32x32x16x4x4_S32x16x32x4x32x4_0_3_1_4_2_5)
        shapeCasts_S32x16x32x4x32x4_S32x16x128x128
      = Cert.Spec.depatch Y := by
  funext i
  obtain ⟨b, c, r, q, rfl⟩ : ∃ (b : Fin 32) (c : Fin 16) (r q : Fin 128), i = ix4 b c r q := ⟨i 0, i 1, i 2, i 3, eq_ix4 i⟩
  refine (image_of_six _ b c r q).trans ?_
  refine (permuted_of_six _ b c _ _ _ _).trans ?_
  exact six_of_flat Y b _ _ c _ _ (tok r q) (lane c (pix r q)) rfl rfl

end Cert.KernelIdeal.TailValue

end
-- ==== Proof.KernelArray.lean ====
/-
  From the blocks to the array, and from the array to the kernel program's result.

  At grid point t the body leaves in the output window's buffer, at row n and lane j,
      (Σ_d x[t, n, d] · wt[d, j] + head[0, j]) · msk[t, 0, j],
  the four loaded blocks being the t-th token slab, the whole tiled weight, the whole channel head and the t-th
  row of the expanded mask. With what those three host-computed arrays hold — wt[d, j] = W[j % 16, d],
  head[0, j] = Σ_d emb[j / 16, d] · W[j % 16, d] + bias[j % 16], msk[t, 0, j] = mask[t, j / 16] — this is the
  specification's flat arrangement at (t, n, j). The 32 blocks tile the output array, so the array ends holding
  the flat arrangement; the host operations after the region turn it into the image read off it; and the
  kernel program's run ends with its result at that image, its arguments unchanged.
-/
import proofs.«106797_j37546604102322_1_alg».proof.Proof.KernelBlocks
import proofs.«106797_j37546604102322_1_alg».proof.Proof.KernelBody
import proofs.«106797_j37546604102322_1_alg».proof.Proof.KernelHost
import proofs.«106797_j37546604102322_1_alg».proof.Proof.KernelTail
import proofs.«106797_j37546604102322_1_alg».proof.Proof.Spec
import Idealize.ShloMosaic.Lib.StableHlo.Run

set_option maxRecDepth 16384

noncomputable section

open scoped BigOperators

namespace Cert.KernelIdeal.ArrayValue

open Cert.KernelIdeal Cert.KernelIdeal.Gen Cert.KernelIdeal.Blocks Cert.KernelIdeal.BodyValue Cert.KernelIdeal.HostValue Cert.Spec
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

/-- The token array as the region finds it. -/
abbrev xArr (c : Dev nD) : FVec Ideal S32x1024x128 .f32 := V m c main_arg0
/-- The tiled weight as the region finds it. -/
abbrev wtArr (c : Dev nD) : FVec Ideal S128x256 .bf16 := V m c main_v11
/-- The channel head as the region finds it. -/
abbrev headArr (c : Dev nD) : FVec Ideal S1x256 .f32 := V m c main_v6
/-- The expanded mask as the region finds it. -/
abbrev mskArr (c : Dev nD) : FVec Ideal S32x1x256 .f32 := V m c main_v14

/-- The token argument as launched. -/
abbrev argX (c : Dev nD) : FVec Ideal S32x1024x128 .f32 := m ((c : Thread nD τ).loc main_arg0)

/-- The token array is the argument as launched. -/
theorem xArr_eq (c : Dev nD) : xArr m c = argX m c := V_main_arg0 m c

/-- The specification's flat arrangement of the arguments as launched. -/
abbrev flatOf (c : Dev nD) : FVec Ideal S32x1024x256 .f32 :=
  flatForm (argX m c) (argMask m c) (argEmb m c) (argW m c) (argBias m c)

theorem hz3 : (![0, 0, 0] : Fin 3 → Nat) = fun _ => 0 := funext fun a => by fin_cases a <;> rfl
theorem hz2 : (![0, 0] : Fin 2 → Nat) = fun _ => 0 := funext fun a => by fin_cases a <;> rfl

/-- One entry of point t's block: the body's value from the four arrays is the flat arrangement at (t, n, j). -/
theorem entry_eq (c : Dev nD) (t : Fin cfg0.N) (n : Fin 1024) (j : Fin 256) :
    ((∑ d : Fin 128, xArr m c (ix3 (pt t) n d) * wtArr m c (ix2 d j)) + headArr m c (ix2 (0 : Fin 1) j)) * mskArr m c (ix3 (pt t) (0 : Fin 1) j)
      = flatOf m c (ix3 (pt t) n j) := by
  have hw : ∀ d : Fin 128, wtArr m c (ix2 d j) = argW m c (ix2 (pixOf j) d) := fun d => wt_apply m c d j
  have hh : headArr m c (ix2 (0 : Fin 1) j) = Cert.Spec.chw (argEmb m c) (argW m c) (argBias m c) (chanOf j) (pixOf j) := chw_apply m c j
  have hm : mskArr m c (ix3 (pt t) (0 : Fin 1) j) = argMask m c (ix2 (pt t) (chanOf j)) := mask_apply m c (pt t) j
  rw [hh, hm, xArr_eq]
  simp only [hw]
  rfl

/-- WHAT POINT t WRITES BACK is block t of the flat arrangement. -/
theorem flushed4_eq (c : Dev nD) (t : Fin cfg0.N) :
    (dats m 0 c).flushed 4 t = ((cfg0.win 4).blk t).view.read (Elt Ideal) (flatOf m c) := by
  show (cfg0.win 4).cut (grid0.coords t) ((dats m 0 c).after 4 t) = _
  rw [after0_4]
  unfold out0_4
  rw [View.canon_unit_zero hz3]
  simp only [View.ld_unit_zero (S := S1x1024x128) hz3, View.ld_unit_zero (S := S128x256) hz2, View.ld_unit_zero (S := S1x256) hz2, View.ld_unit_zero (S := S1x1x256) hz3]
  funext y
  obtain ⟨u, n, j, rfl⟩ : ∃ (u : Fin 1) (n : Fin 1024) (j : Fin 256), y = ix3 u n j := ⟨y 0, y 1, y 2, eq_ix3 y⟩
  refine (pay_apply _ _ _ _ u n j).trans ?_
  show ((∑ d : Fin 128, xArr m c (((cfg0.win 0).blk t).view.emb (ix3 (0 : Fin 1) n d)) * wtArr m c (((cfg0.win 1).blk t).view.emb (ix2 d j)))
        + headArr m c (((cfg0.win 2).blk t).view.emb (ix2 (0 : Fin 1) j))) * mskArr m c (((cfg0.win 3).blk t).view.emb (ix3 (0 : Fin 1) (0 : Fin 1) j))
     = flatOf m c (((cfg0.win 4).blk t).view.emb (ix3 u n j))
  refine Eq.trans (congrArg₂ (· * ·) (congrArg₂ (· + ·)
      (Finset.sum_congr rfl fun d _ => congrArg₂ (· * ·) (congrArg (xArr m c) (emb0 t (0 : Fin 1) n d)) (congrArg (wtArr m c) (emb1 t d j)))
      (congrArg (headArr m c) (emb2 t (0 : Fin 1) j))) (congrArg (mskArr m c) (emb3 t (0 : Fin 1) (0 : Fin 1) j))) ?_
  exact (entry_eq m c t n j).trans (congrArg (flatOf m c) (emb4 t u n j)).symm

/-- THE ARRAY after the run is the flat arrangement. -/
theorem final4 (c : Dev nD) : (dats m 0 c).arrAt 4 cfg0.N = flatOf m c :=
  (dats m 0 c).arrAt_eq_of_cover 4 (flatOf m c) (fun t _ => flushed4_eq m c t) cover4

/-- The host operations after the region turn the flat array into the image read off it. -/
theorem tail_eq (c : Dev nD) :
    Pipeline.afterTail₀ cfgs (dats m) 0 (V0 m) [hostOps1] c main_v18 = depatch (flatOf m c) := by
  unfold Pipeline.afterTail₀
  show StableHlo.after hostOps1 _ (Proc.devRef .tc main_v18) = _
  after_results
  have hY : Pipeline.withArrays (cfgs 0).spec c (V0 m c) (fun w => (dats m 0 c).arrAt w (cfgs 0).N) (Proc.devRef .tc main_v15) = flatOf m c :=
    (Pipeline.withArrays_arr spec0 launch0.win.arr_inj c _ _ 4).trans (final4 m c)
  refine Eq.trans ?_ (TailValue.tail_eq_depatch (flatOf m c))
  exact congrArg (fun Y : FVec Ideal S32x1024x256 .f32 => shapeCast S32x16x128x128 (transpose S32x16x32x4x32x4 [0, 3, 1, 4, 2, 5] (shapeCast S32x32x32x16x4x4 Y shapeCasts_S32x1024x256_S32x32x32x16x4x4) transposes_S32x32x32x16x4x4_S32x16x32x4x32x4_0_3_1_4_2_5) shapeCasts_S32x16x32x4x32x4_S32x16x128x128) hY

/-- The kernel program's run, read: it ends with its result at the image read off the flat arrangement of the
    arguments as launched, and with its arguments unchanged. -/
theorem run : θ_run defs (onTc (τ := τ) (main (F := Ideal))) ⟨m, fun _ => 0, ρ⟩ (fun r => ∀ c : Dev nD,
      r.2.mem ((c.tc : Thread nD τ).loc main_v18) = depatch (flatOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v18 (Pipeline.mem_restRefs_of main_v18 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.ArrayValue

end
-- ==== Proof.lean ====
/-
  The certificate of the query-based decoder head: a Pallas kernel over a grid of 32 batch entries, with host
  operations before it (the tiled weight, the channel head, the expanded mask) and after it (the flat result
  regrouped into the image), against the jnp reference.

  At the ideal values both programs compute, at pixel (r, q) of channel c of batch b,
      (Σ_d (x[b, n, d] + emb[c, d]) · W[p, d] + bias[p]) · mask[b, c],    n = (r / 4) · 32 + q / 4,  p = (r % 4) · 4 + q % 4:
  the reference literally so, the kernel as (Σ_d x·W + (Σ_d emb·W + bias)) · mask on a flat lane axis c · 16 + p.
  The two are joined by distributing the product over x + emb term by term, which needs x, emb and W real: that
  is what the precondition gives. The frames of the two kernel programs are the generated ones; the reference's
  frame is its generated run with the result dropped; the idealization rewrote nothing.
-/
import proofs.«106797_j37546604102322_1_alg».proof.Defs
import proofs.«106797_j37546604102322_1_alg».proof.Proof.Gen.Kernel
import proofs.«106797_j37546604102322_1_alg».proof.Proof.Gen.Kernel.Skeleton
import proofs.«106797_j37546604102322_1_alg».proof.Proof.Gen.Kernel.Launch
import proofs.«106797_j37546604102322_1_alg».proof.Proof.Gen.Kernel.Points
import proofs.«106797_j37546604102322_1_alg».proof.Proof.Gen.Kernel.Frame
import proofs.«106797_j37546604102322_1_alg».proof.Proof.Gen.KernelIdeal
import proofs.«106797_j37546604102322_1_alg».proof.Proof.Gen.KernelIdeal.Skeleton
import proofs.«106797_j37546604102322_1_alg».proof.Proof.Gen.KernelIdeal.Launch
import proofs.«106797_j37546604102322_1_alg».proof.Proof.Gen.KernelIdeal.Points
import proofs.«106797_j37546604102322_1_alg».proof.Proof.Gen.KernelIdeal.Frame
import proofs.«106797_j37546604102322_1_alg».proof.Proof.Gen.ReferenceIdeal
import proofs.«106797_j37546604102322_1_alg».proof.Proof.Gen.Pre_finite_inputs
import proofs.«106797_j37546604102322_1_alg».proof.Proof.Gen.ReferenceIdeal.Run
import proofs.«106797_j37546604102322_1_alg».proof.Proof.Gen.ReferenceIdeal.Read
import proofs.«106797_j37546604102322_1_alg».proof.Proof.Spec
import proofs.«106797_j37546604102322_1_alg».proof.Proof.Finite
import proofs.«106797_j37546604102322_1_alg».proof.Proof.RefValue
import proofs.«106797_j37546604102322_1_alg».proof.Proof.KernelArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- Both programs end at the image read off the flat arrangement of the kernel program's arguments: the kernel
    program by its run, the reference because its result is the reference arrangement of its own arguments, which
    agree with the kernel program's, and the two arrangements are one function on real x, emb and W. -/
theorem algebraic : Cert.algebraic_KernelIdeal_ReferenceIdeal := by
  intro m ρ m' ρ' hpre hagree
  refine ⟨fun c => Cert.Spec.depatch (Cert.KernelIdeal.ArrayValue.flatOf m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.val_eq_refForm,
    (hagree c).1, (hagree c).2.1, (hagree c).2.2.1, (hagree c).2.2.2.1, (hagree c).2.2.2.2]
  obtain ⟨hx, he, hW⟩ := Cert.Finite.real_of_pre _ _ _ _ _ (hpre c)
  exact (Cert.Spec.depatch_flatForm _ _ _ _ _ hx he hW).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
